-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S2048x512 : Shape := ⟨2, ![2048, 512]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S128x2048 .f32) (main_arg1 : FVec F S2048x512 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S128x2048 : Shape := ⟨2, ![128, 2048]⟩
abbrev S2048x512 : Shape := ⟨2, ![2048, 512]⟩
abbrev S128x512 : Shape := ⟨2, ![128, 512]⟩
abbrev S2048x128 : Shape := ⟨2, ![2048, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x2048, .f32⟩
  | .hbm, ⟨1, _⟩ => ⟨S2048x512, .f32⟩
  | .hbm, ⟨2, _⟩ => ⟨S128x512, .f32⟩
  | .local _ .vmem, ⟨0, _⟩ => ⟨S128x2048, .f32⟩
  | .local _ .vmem, ⟨1, _⟩ => ⟨S2048x128, .f32⟩
  | .local _ .vmem, ⟨2, _⟩ => ⟨S2048x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c128_i32 : BitVec 32 := 128#32
  let v4 : BitVec 32 := Scalar.muli c0_i32 c128_i32
  v4
def k0_off1 (c0_i32 : BitVec 32) : Fin 2 → Nat :=
  let c0_1 : Index := 0#32
  let c128_i32 : BitVec 32 := 128#32
  let v4 : BitVec 32 := Scalar.muli c0_i32 c128_i32
  let v5 : BitVec 32 := v4
  let v6 : Index := Scalar.indexCast v5
  ![0, v6.toNat]
def k0_off2 (c0_i32 : BitVec 32) : Fin 2 → Nat :=
  let c128_i32 : BitVec 32 := 128#32
  let v4 : BitVec 32 := Scalar.muli c0_i32 c128_i32
  let v5 : BitVec 32 := v4
  let v8 : Index := Scalar.indexCast v5
  let c0_2 : Index := 0#32
  ![v8.toNat, 0]
def k0_mult2 : BitVec 32 :=
  let c1_i32 : BitVec 32 := 1#32
  let c128_i32_10 : BitVec 32 := 128#32
  let v25 : BitVec 32 := Scalar.muli c1_i32 c128_i32_10
  v25
def k0_mult3 : BitVec 32 :=
  let c2_i32 : BitVec 32 := 2#32
  let c128_i32_20 : BitVec 32 := 128#32
  let v46 : BitVec 32 := Scalar.muli c2_i32 c128_i32_20
  v46
def k0_mult4 : BitVec 32 :=
  let c3_i32 : BitVec 32 := 3#32
  let c128_i32_30 : BitVec 32 := 128#32
  let v67 : BitVec 32 := Scalar.muli c3_i32 c128_i32_30
  v67
def k0_mult5 : BitVec 32 :=
  let c4_i32 : BitVec 32 := 4#32
  let c128_i32_40 : BitVec 32 := 128#32
  let v88 : BitVec 32 := Scalar.muli c4_i32 c128_i32_40
  v88
def k0_mult6 : BitVec 32 :=
  let c5_i32 : BitVec 32 := 5#32
  let c128_i32_50 : BitVec 32 := 128#32
  let v109 : BitVec 32 := Scalar.muli c5_i32 c128_i32_50
  v109
def k0_mult7 : BitVec 32 :=
  let c6_i32 : BitVec 32 := 6#32
  let c128_i32_60 : BitVec 32 := 128#32
  let v130 : BitVec 32 := Scalar.muli c6_i32 c128_i32_60
  v130
def k0_mult8 : BitVec 32 :=
  let c7_i32 : BitVec 32 := 7#32
  let c128_i32_70 : BitVec 32 := 128#32
  let v151 : BitVec 32 := Scalar.muli c7_i32 c128_i32_70
  v151
def k0_mult9 : BitVec 32 :=
  let c8_i32 : BitVec 32 := 8#32
  let c128_i32_80 : BitVec 32 := 128#32
  let v172 : BitVec 32 := Scalar.muli c8_i32 c128_i32_80
  v172
def k0_mult10 : BitVec 32 :=
  let c9_i32 : BitVec 32 := 9#32
  let c128_i32_90 : BitVec 32 := 128#32
  let v193 : BitVec 32 := Scalar.muli c9_i32 c128_i32_90
  v193
def k0_mult11 : BitVec 32 :=
  let c10_i32 : BitVec 32 := 10#32
  let c128_i32_100 : BitVec 32 := 128#32
  let v214 : BitVec 32 := Scalar.muli c10_i32 c128_i32_100
  v214
def k0_mult12 : BitVec 32 :=
  let c11_i32 : BitVec 32 := 11#32
  let c128_i32_110 : BitVec 32 := 128#32
  let v235 : BitVec 32 := Scalar.muli c11_i32 c128_i32_110
  v235
def k0_mult13 : BitVec 32 :=
  let c12_i32 : BitVec 32 := 12#32
  let c128_i32_120 : BitVec 32 := 128#32
  let v256 : BitVec 32 := Scalar.muli c12_i32 c128_i32_120
  v256
def k0_mult14 : BitVec 32 :=
  let c13_i32 : BitVec 32 := 13#32
  let c128_i32_130 : BitVec 32 := 128#32
  let v277 : BitVec 32 := Scalar.muli c13_i32 c128_i32_130
  v277
def k0_mult15 : BitVec 32 :=
  let c14_i32 : BitVec 32 := 14#32
  let c128_i32_140 : BitVec 32 := 128#32
  let v298 : BitVec 32 := Scalar.muli c14_i32 c128_i32_140
  v298
def k0_mult16 : BitVec 32 :=
  let c15_i32 : BitVec 32 := 15#32
  let c128_i32_150 : BitVec 32 := 128#32
  let v319 : BitVec 32 := Scalar.muli c15_i32 c128_i32_150
  v319
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  hrank0 : 0 < grid0.rank
  k0_mult1_dvd : 128 ∣ k0_mult1.toNat
  k0_off1_inb : ∀ (r : Fin 16), ∀ a, (k0_off1 (BitVec.ofNat 32 r.val)) a + S128x128.size a ≤ S128x2048.size a
  k0_off2_inb : ∀ (r : Fin 16), ∀ a, (k0_off2 (BitVec.ofNat 32 r.val)) a + S128x128.size a ≤ S2048x128.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x2048.size a
  hwx0_0 : ∀ i : grid0.Coords, EltTy.bits .f32 = 32 ∨ (Rect.block (s := S128x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x512.size a
  hwx0_1 : ∀ i : grid0.Coords, EltTy.bits .f32 = 32 ∨ (Rect.block (s := S2048x512) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x512.size a
  hwx0_2 : ∀ i : grid0.Coords, EltTy.bits .f32 = 32 ∨ (Rect.block (s := S128x512) S128x128.size (cc0_transform_2 i) (hinb0_2 i)).WholeWords (EltTy.packing .f32)

variable [Facts₀]

abbrev win0_0 : Pipeline.Window sig grid0 :=
  Pipeline.Window.ofSpec (Memref.whole main_arg0) S128x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x2048 : Shape := ⟨2, ![128, 2048]⟩
abbrev S2048x512 : Shape := ⟨2, ![2048, 512]⟩
abbrev S_ : Shape := ⟨0, ![]⟩
abbrev S128x2048x1 : Shape := ⟨3, ![128, 2048, 1]⟩
abbrev S1x2048x512 : Shape := ⟨3, ![1, 2048, 512]⟩
abbrev S128x2048x512 : Shape := ⟨3, ![128, 2048, 512]⟩
abbrev S128x512 : Shape := ⟨2, ![128, 512]⟩

abbrev nBuf : Space → Nat
  | .hbm => 17
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S128x2048x1, .f32⟩
  | .hbm, ⟨11, _⟩ => ⟨S1x2048x512, .f32⟩
  | .hbm, ⟨12, _⟩ => ⟨S128x2048x512, .f32⟩
  | .hbm, ⟨13, _⟩ => ⟨S128x2048x512, .f32⟩
  | .hbm, ⟨14, _⟩ => ⟨S128x2048x512, .f32⟩
  | .hbm, ⟨15, _⟩ => ⟨S_, .f32⟩
  | .hbm, ⟨16, _⟩ => ⟨S128x512, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S2048x512 : S_.BroadcastsInDim S2048x512 (![] : Fin 0 → Fin S2048x512.rank)
  bcast_S128x2048_S128x2048x1_0_1 : S128x2048.BroadcastsInDim S128x2048x1 (![0, 1] : Fin 2 → Fin S128x2048x1.rank)
  bcast_S2048x512_S1x2048x512_1_2 : S2048x512.BroadcastsInDim S1x2048x512 (![1, 2] : Fin 2 → Fin S1x2048x512.rank)
  bcast_S128x2048x1_S128x2048x512_0_1_2 : S128x2048x1.BroadcastsInDim S128x2048x512 (![0, 1, 2] : Fin 3 → Fin S128x2048x512.rank)
  bcast_S1x2048x512_S128x2048x512_0_1_2 : S1x2048x512.BroadcastsInDim S128x2048x512 (![0, 1, 2] : Fin 3 → Fin S128x2048x512.rank)
  reducesTo_S128x2048x512_S128x512_d1 : S128x2048x512.ReducesTo [1] S128x512
  h_S_ : 0 < S_.numel

variable [Facts₀]

class Facts : Prop extends Facts₀ where

variable [Facts]
-- ==== Proof.MaxMinSpec.lean ====
/-
  The specification, and the one order fact that joins the two programs.

  Both programs compute, for a `128 × 2048` array `m` and a `2048 × 512` array `w`,

      out b o = sup over i < 2048 of min (m b i) (clip (w i o)),     clip x = min 1 (max 0 x),

  on the extended reals, where `max` is the lattice join and the reduction's initial value `-∞` is the bottom
  (`maxMin` below). They differ in how they take the supremum:

  The kernel walks the 2048 reduction indices in 16 chunks of 128: it starts its accumulator at `-∞` and, chunk after
  chunk, replaces it by the larger of itself and that chunk's supremum. The reference takes ONE supremum over all 2048
  indices. On the extended reals (a complete linear order whose bottom is `-∞`) the two agree for every family `g`:
  each chunk's supremum is below the whole supremum, and every index lies in exactly one chunk, whose supremum the
  running maximum has absorbed. Nothing here needs finiteness: only `max`, `⊥` and `≤`.
-/
import Idealize.ShloMosaic.PureOps.Ideal
import Idealize.ShloMosaic.Lib.ValueIdx

namespace Cert.MaxMin

open Idealize.ShloMosaic Idealize.ShloMosaic.ValueIdx

/-! ## The specification -/

/-- The weights' clamp to `[0, 1]`, its two bounds as the programs' own constant words (`1.0` and `0.0`). -/
noncomputable def clip (x : EReal) : EReal := min (Ideal.ofBits .f32 0x3F800000#32) (max (Ideal.ofBits .f32 0x00000000#32) x)

/-- THE RESULT both programs compute: at `(b, o)` the supremum over the 2048 reduction indices `i` of
    `min (m b i) (clip (w i o))`. -/
noncomputable def maxMin (m : (⟨2, ![128, 2048]⟩ : Shape).Idx → EReal) (w : (⟨2, ![2048, 512]⟩ : Shape).Idx → EReal) :
    (⟨2, ![128, 512]⟩ : Shape).Idx → EReal :=
  fun y => Finset.univ.sup fun i : Fin 2048 =>
    min (m (ix2 (n0 := 128) ⟨(y 0).val, idx2_lt0 y⟩ i)) (clip (w (ix2 (n1 := 512) i ⟨(y 1).val, idx2_lt1 y⟩)))

/-- The reductions' initial word `0xFF800000` is the bottom of the extended reals. -/
theorem negInf : Ideal.ofBits .f32 0xFF800000#32 = (⊥ : EReal) := by simp [Ideal.ofBits, Ideal.ieee]

/-- A fold of `max` from `⊥` over a finite set is the set's supremum. -/
theorem fold_max_bot {ι : Type} (s : Finset ι) (f : ι → EReal) : s.fold max ⊥ f = s.sup f := rfl

/-! ## A running maximum over chunks -/

/-- The accumulator after the first `n` chunks: `-∞`, then the larger of itself and each chunk's value in turn. -/
noncomputable def running (chunk : ℕ → EReal) : ℕ → EReal
  | 0 => ⊥
  | n + 1 => max (running chunk n) (chunk n)

/-- Every chunk already visited is below the accumulator. -/
theorem chunk_le_running (chunk : ℕ → EReal) {k n : ℕ} (h : k < n) : chunk k ≤ running chunk n := by
  induction n with
  | zero => omega
  | succ n ih =>
    rcases Nat.lt_succ_iff_lt_or_eq.mp h with h' | rfl
    · exact le_trans (ih h') (le_max_left _ _)
    · exact le_max_right _ _

/-- A bound on every visited chunk bounds the accumulator. -/
theorem running_le (chunk : ℕ → EReal) (B : EReal) (n : ℕ) (h : ∀ k < n, chunk k ≤ B) : running chunk n ≤ B := by
  induction n with
  | zero => exact bot_le
  | succ n ih => exact max_le (ih fun k hk => h k (Nat.lt_succ_of_lt hk)) (h n (Nat.lt_succ_self n))

/-- Sixteen chunks of 128, each the supremum of `g` over its own indices `128 k + j`: the accumulator after the last
    chunk is the supremum of `g` over all 2048 indices. -/
theorem running_eq_sup (g : Fin 2048 → EReal) (chunk : ℕ → EReal)
    (hchunk : ∀ k (hk : k < 16), chunk k = Finset.univ.sup fun j : Fin 128 => g ⟨128 * k + j.val, by have := j.isLt; omega⟩) :
    running chunk 16 = Finset.univ.sup g := by
  apply le_antisymm
  · refine running_le chunk _ 16 fun k hk => ?_
    rw [hchunk k hk]
    exact Finset.sup_le fun j _ => Finset.le_sup (f := g) (Finset.mem_univ _)
  · refine Finset.sup_le fun i _ => ?_
    have hi : i.val < 2048 := i.isLt
    have hk : i.val / 128 < 16 := by omega
    have hj : i.val % 128 < 128 := Nat.mod_lt _ (by norm_num)
    have e : i = ⟨128 * (i.val / 128) + (⟨i.val % 128, hj⟩ : Fin 128).val, by show 128 * (i.val / 128) + i.val % 128 < 2048; omega⟩ :=
      Fin.ext (by show i.val = 128 * (i.val / 128) + i.val % 128; omega)
    calc g i = g ⟨128 * (i.val / 128) + (⟨i.val % 128, hj⟩ : Fin 128).val, _⟩ := congrArg g e
      _ ≤ chunk (i.val / 128) := by
          rw [hchunk _ hk]
          exact Finset.le_sup (f := fun j : Fin 128 => g ⟨128 * (i.val / 128) + j.val, by have := j.isLt; omega⟩)
            (Finset.mem_univ (⟨i.val % 128, hj⟩ : Fin 128))
      _ ≤ running chunk 16 := chunk_le_running chunk hk

end Cert.MaxMin
-- ==== Proof.ChunkStep.lean ====
/-
  One chunk of the kernel's reduction, read at an index on the extended reals.

  A chunk takes a `128 × 128` slab `a` of the left operand (rows `p`, reduction index `j`), a `128 × 128` slab `b` of the
  weights (reduction index `j`, columns `q`) and the accumulator so far, and stores

      max (acc p q) (sup over j of min (a p j) (clip (b j q))),     clip x = min 1 (max 0 x).

  The body spells the inner supremum as a broadcast of both slabs to `128 × 128 × 128`, a pointwise minimum and a
  maximum-reduction of the middle axis from `-∞`; reading each layout operation at an index leaves exactly that
  supremum, because `max` on the extended reals is the lattice join and `-∞` its bottom.
-/
import proofs.«149591_j14705968021855_1_alg».proof.Proof.Gen.KernelIdeal.Skeleton
import proofs.«149591_j14705968021855_1_alg».proof.Proof.MaxMinSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MaxMin

open Cert.KernelIdeal Cert.KernelIdeal.Gen Cert.MaxMin Idealize.ShloMosaic Idealize.ShloMosaic.ValueIdx

/-- The reduced axis put back: the source index of result `(p, q)` at reduction coordinate `j` is `(p, j, q)`. -/
theorem lift_mid (p q j : Fin 128) :
    (reduces_S128x128x128_S128x128).lift (a := (1 : Fin 3)) (ix2 p q) j = ix3 p j q := by
  funext d
  apply Fin.ext
  match d with
  | ⟨0, _⟩ => rfl
  | ⟨1, _⟩ => rfl
  | ⟨2, _⟩ => rfl

/-- A `[128, 128]` slab cast to `[128, 128, 1]` keeps its two coordinates. -/
theorem cast_col (a : (S128x128).Idx → EReal) (p j : Fin 128) (u : Fin 1) :
    shapeCast S128x128x1 a shapeCasts_S128x128_S128x128x1 (ix3 p j u) = a (ix2 p j) := by
  refine shapeCast_apply a _ _ (ix2 p j) ?_
  rw [Shape.rowMajor_val_two, Shape.rowMajor_val_three]
  show p.val * 128 + j.val = (p.val * 128 + j.val) * 1 + u.val
  have := u.isLt; omega

/-- The left slab broadcast along the output columns: `(p, j, q) ↦ a p j`. -/
theorem left_apply (a : (S128x128).Idx → EReal) (p j q : Fin 128) :
    broadcastTo S128x128x128 (shapeCast S128x128x1 a shapeCasts_S128x128_S128x128x1) broadcasts_S128x128x1_S128x128x128 (ix3 p j q)
      = a (ix2 p j) := by
  rw [broadcastTo_apply _ broadcasts_S128x128x1_S128x128x128 (ix3 p j q) (ix3 p j (0 : Fin 1)) (fun d => by
    match d with
    | ⟨0, _⟩ => rfl
    | ⟨1, _⟩ => rfl
    | ⟨2, _⟩ => rfl)]
  exact cast_col a p j 0

/-- The clamped weight slab broadcast along the rows: `(p, j, q) ↦ w j q`. -/
theorem right_apply (w : (S128x128).Idx → EReal) (p j q : Fin 128) :
    broadcastTo S128x128x128 (shapeCast S1x128x128 w shapeCasts_S128x128_S1x128x128) broadcasts_S1x128x128_S128x128x128 (ix3 p j q)
      = w (ix2 j q) := by
  rw [broadcastTo_apply _ broadcasts_S1x128x128_S128x128x128 (ix3 p j q) (ix3 (0 : Fin 1) j q) (fun d => by
    match d with
    | ⟨0, _⟩ => rfl
    | ⟨1, _⟩ => rfl
    | ⟨2, _⟩ => rfl)]
  exact shapeCast_ab_1ab_apply w _ 0 j q

set_option backward.isDefEq.respectTransparency.types false in
/-- ONE CHUNK at an index: the stored value at `(p, q)` is the larger of the accumulator there and the chunk's
    supremum of `min (a p j) (clip (b j q))` over the 128 reduction coordinates `j`. -/
theorem chunk_apply (a b acc : Vec Ideal S128x128 .f32) (p q : Fin 128) :
    k0_pay2 (F := Ideal) a b acc (ix2 p q)
      = max (acc (ix2 p q)) (Finset.univ.sup fun j : Fin 128 => min (a (ix2 p j)) (clip (b (ix2 j q)))) := by
  unfold k0_pay2
  dsimp only
  rw [shapeCast_self, maximumf_apply]
  refine congrArg (max (acc (ix2 p q))) ?_
  refine (Ideal.multiReduction_maximumf_single _ _ _ _ _ (ix2 p q)).trans ?_
  rw [Ideal.ofBits_def, negInf, fold_max_bot]
  refine Finset.sup_congr rfl fun j _ => ?_
  show minimumf _ _ (reduces_S128x128x128_S128x128.lift (ix2 p q) j) = _
  rw [lift_mid, minimumf_apply, left_apply, right_apply]
  rfl

end Cert.KernelIdeal.MaxMin

end
-- ==== Proof.ChunkChain.lean ====
/-
  The kernel body as a chain of sixteen chunk updates.

  At one grid point the body resets its `128 × 128` accumulator to `-∞` and then, for `k = 0 … 15`, loads columns
  `128 k … 128 k + 127` of the left operand's block and rows `128 k … 128 k + 127` of the weight block and stores the chunk
  update of the accumulator (the same function each time, although the body's text is cut at arbitrary places so
  that some updates are spelt across two or three named pieces). Each load of the accumulator reads back the store
  just before it, so the accumulator after `k` chunks is the `k`-fold iterate `accAfter … k`, and what the body finally
  copies to the output block is `accAfter … 16`. Everything here holds at any float instance.
-/
import proofs.«149591_j14705968021855_1_alg».proof.Proof.Gen.KernelIdeal.Frame
import Idealize.ShloMosaic.Lib.ValueIdx
import Idealize.ShloMosaic.Lib.Pipeline.Value

set_option maxRecDepth 16384

noncomputable section

namespace Cert.KernelIdeal.MaxMin

open Cert.KernelIdeal Cert.KernelIdeal.Gen Idealize.ShloMosaic Idealize.ShloMosaic.TcCoe Idealize.ShloMosaic.ValueIdx
open Idealize.SL Idealize.SL.Sem
open Facts₀ Facts

variable {F : FTy → Type} [FloatOps F]

theorem zeroOff : (![0, 0] : Fin 2 → Nat) = fun _ => 0 := funext fun a => by fin_cases a <;> rfl

/-- A load of the whole accumulator after a store of the whole accumulator reads that store's value, whatever was
    stored earlier. -/
theorem readCov_last {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-! ## The slabs a chunk loads -/

/-- Chunk `k`'s slab of the left operand's block: all rows, columns `128 k + j`. -/
def leftSlab (x0 : Vec F S128x2048 .f32) (k : ℕ) : Vec F S128x128 .f32 :=
  fun y => x0 (ix2 (n0 := 128) (n1 := 2048) ⟨(y 0).val, idx2_lt0 y⟩
    ⟨min (128 * k + (y 1).val) 2047, by omega⟩)

/-- Chunk `k`'s slab of the weight block: rows `128 k + j`, all columns. -/
def rightSlab (x1 : Vec F S2048x128 .f32) (k : ℕ) : Vec F S128x128 .f32 :=
  fun y => x1 (ix2 (n0 := 2048) (n1 := 128) ⟨min (128 * k + (y 0).val) 2047, by omega⟩
    ⟨(y 1).val, idx2_lt1 y⟩)

variable (arg1 : Memref sig .tc .vmem S128x2048 .f32) (harg1 : arg1.IsWhole)
  (arg2 : Memref sig .tc .vmem S2048x128 .f32) (harg2 : arg2.IsWhole)
  (arg4 : Memref sig .tc .vmem S128x128 .f32)
  (x0 : Vec F S128x2048 .f32) (x1 : Vec F S2048x128 .f32)

/-- The body's load of the left block through the rectangle at column offset `128 k` is chunk `k`'s slab. -/
theorem load_left (k : ℕ) (hk : k < 16) (off : Fin 2 → Nat) (hoff : off = ![0, 128 * k])
    (inb : ∀ a, off a + S128x128.size a ≤ S128x2048.size a) :
    View.readAt (Elt F) arg1.view (Rect.unit (s := S128x2048) off S128x128.size inb).toLoadRect (harg1.unread x0) = leftSlab x0 k := by
  subst hoff
  rw [View.readAt_eq_ld, harg1.read_unread]
  funext y
  show x0 _ = x0 _
  congr 1
  funext d
  apply Fin.ext
  match d with
  | ⟨0, _⟩ => show 0 + 1 * (y 0).val = (y 0).val; omega
  | ⟨1, _⟩ => show 128 * k + 1 * (y 1).val = min (128 * k + (y 1).val) 2047; have := idx2_lt1 y; omega

/-- The body's load of the weight block through the rectangle at row offset `128 k` is chunk `k`'s slab. -/
theorem load_right (k : ℕ) (hk : k < 16) (off : Fin 2 → Nat) (hoff : off = ![128 * k, 0])
    (inb : ∀ a, off a + S128x128.size a ≤ S2048x128.size a) :
    View.readAt (Elt F) arg2.view (Rect.unit (s := S2048x128) off S128x128.size inb).toLoadRect (harg2.unread x1) = rightSlab x1 k := by
  subst hoff
  rw [View.readAt_eq_ld, harg2.read_unread]
  funext y
  show x1 _ = x1 _
  congr 1
  funext d
  apply Fin.ext
  match d with
  | ⟨0, _⟩ => show 128 * k + 1 * (y 0).val = min (128 * k + (y 0).val) 2047; have := idx2_lt0 y; omega
  | ⟨1, _⟩ => show 0 + 1 * (y 1).val = (y 1).val; omega

/-! ## The one update, under the body's several spellings -/

section Spellings
variable (a b acc : Vec F S128x128 .f32)

theorem spelt5 : k0_pay5 (k0_pay3 a) (k0_pay4 b) acc = k0_pay2 a b acc := rfl
theorem spelt6 : k0_pay6 a b acc = k0_pay2 a b acc := rfl
theorem spelt7 : k0_pay7 a b (FloatOps.ofBits .f32 0#32) (FloatOps.ofBits .f32 1065353216#32) acc = k0_pay2 a b acc := rfl
theorem spelt8 : k0_pay8 a b acc = k0_pay2 a b acc := rfl
theorem spelt9 : k0_pay9 a b acc = k0_pay2 a b acc := rfl
theorem spelt10 : k0_pay10 a b acc = k0_pay2 a b acc := rfl
theorem spelt11 : k0_pay11 a b acc = k0_pay2 a b acc := rfl
theorem spelt13 : k0_pay13 (k0_pay12 a b acc) = k0_pay2 a b acc := rfl
theorem spelt14 : k0_pay14 a b acc = k0_pay2 a b acc := rfl
theorem spelt16 : k0_pay16 (k0_pay15 a b) acc = k0_pay2 a b acc := rfl
theorem spelt17 : k0_pay17 a b acc = k0_pay2 a b acc := rfl
theorem spelt20 : k0_pay20 a (k0_pay18 b) k0_pay19 acc = k0_pay2 a b acc := rfl
theorem spelt21 : k0_pay21 a b acc = k0_pay2 a b acc := rfl
theorem spelt22 : k0_pay22 a b acc = k0_pay2 a b acc := rfl
theorem spelt23 : k0_pay23 a b acc = k0_pay2 a b acc := rfl

end Spellings

/-! ## The accumulator after `k` chunks -/

/-- The accumulator after the first `k` chunks: the reset value, then one update per chunk on that chunk's slabs. -/
def accAfter (x0 : Vec F S128x2048 .f32) (x1 : Vec F S2048x128 .f32) : ℕ → Vec F S128x128 .f32
  | 0 => k0_pay1
  | k + 1 => k0_pay2 (leftSlab x0 k) (rightSlab x1 k) (accAfter x0 x1 k)

theorem accAfter_succ (k : ℕ) :
    accAfter x0 x1 (k + 1) = k0_pay2 (leftSlab x0 k) (rightSlab x1 k) (accAfter x0 x1 k) := rfl

variable (c : Dev nD)

theorem acc0 : kernelRun0_A.sl.v20 (F := F) c arg4 = accAfter x0 x1 0 := by
  unfold kernelRun0_A.sl.v20 kernelRun0_A.sl.HS0_1
  exact View.readCov_unit_zero _ zeroOff _ _

set_option backward.isDefEq.respectTransparency.types false in
theorem acc1 : kernelRun0_A.sl.v41 c arg1 harg1 arg2 harg2 arg4 x0 x1 = accAfter x0 x1 1 := by
  unfold kernelRun0_A.sl.v41 kernelRun0_A.sl.HS0_2
  rw [readCov_last _ zeroOff, acc0 arg4 x0 x1 c, load_left arg1 harg1 x0 0 (by decide) _ rfl,
    load_right arg2 harg2 x1 0 (by decide) _ rfl]
  rfl

set_option backward.isDefEq.respectTransparency.types false in
theorem acc2 : kernelRun0_A.sl.v62 c arg1 harg1 arg2 harg2 arg4 x0 x1 = accAfter x0 x1 2 := by
  unfold kernelRun0_A.sl.v62 kernelRun0_A.sl.HS0_3 kernelRun0_A.sl.r kernelRun0_A.sl.r_1
  rw [readCov_last _ zeroOff, acc1 arg1 harg1 arg2 harg2 arg4 x0 x1 c, load_left arg1 harg1 x0 1 (by decide) _ rfl,
    load_right arg2 harg2 x1 1 (by decide) _ rfl, spelt5]
  rfl

set_option backward.isDefEq.respectTransparency.types false in
theorem acc3 : kernelRun0_A.sl.v83 c arg1 harg1 arg2 harg2 arg4 x0 x1 = accAfter x0 x1 3 := by
  unfold kernelRun0_A.sl.v83 kernelRun0_A.sl.HS0_4
  rw [readCov_last _ zeroOff, acc2 arg1 harg1 arg2 harg2 arg4 x0 x1 c, load_left arg1 harg1 x0 2 (by decide) _ rfl,
    load_right arg2 harg2 x1 2 (by decide) _ rfl, spelt6]
  rfl

set_option backward.isDefEq.respectTransparency.types false in
theorem acc4 : kernelRun0_A.sl.v104 c arg1 harg1 arg2 harg2 arg4 x0 x1 = accAfter x0 x1 4 := by
  unfold kernelRun0_A.sl.v104 kernelRun0_A.sl.HS0_5 kernelRun0_A.sl.r_2 kernelRun0_A.sl.r_3 kernelRun0_A.sl.cst_33
    kernelRun0_A.sl.cst_34
  rw [readCov_last _ zeroOff, acc3 arg1 harg1 arg2 harg2 arg4 x0 x1 c, load_left arg1 harg1 x0 3 (by decide) _ rfl,
    load_right arg2 harg2 x1 3 (by decide) _ rfl, spelt7]
  rfl

set_option backward.isDefEq.respectTransparency.types false in
theorem acc5 : kernelRun0_A.sl.v125 c arg1 harg1 arg2 harg2 arg4 x0 x1 = accAfter x0 x1 5 := by
  unfold kernelRun0_A.sl.v125 kernelRun0_A.sl.HS0_6
  rw [readCov_last _ zeroOff, acc4 arg1 harg1 arg2 harg2 arg4 x0 x1 c, load_left arg1 harg1 x0 4 (by decide) _ rfl,
    load_right arg2 harg2 x1 4 (by decide) _ rfl, spelt8]
  rfl

set_option backward.isDefEq.respectTransparency.types false in
theorem acc6 : kernelRun0_A.sl.v146 c arg1 harg1 arg2 harg2 arg4 x0 x1 = accAfter x0 x1 6 := by
  unfold kernelRun0_A.sl.v146 kernelRun0_A.sl.HS0_7
  rw [readCov_last _ zeroOff, acc5 arg1 harg1 arg2 harg2 arg4 x0 x1 c, load_left arg1 harg1 x0 5 (by decide) _ rfl,
    load_right arg2 harg2 x1 5 (by decide) _ rfl, spelt9]
  rfl

set_option backward.isDefEq.respectTransparency.types false in
theorem acc7 : kernelRun0_A.sl.v167 c arg1 harg1 arg2 harg2 arg4 x0 x1 = accAfter x0 x1 7 := by
  unfold kernelRun0_A.sl.v167 kernelRun0_A.sl.HS0_8
  rw [readCov_last _ zeroOff, acc6 arg1 harg1 arg2 harg2 arg4 x0 x1 c, load_left arg1 harg1 x0 6 (by decide) _ rfl,
    load_right arg2 harg2 x1 6 (by decide) _ rfl, spelt10]
  rfl

set_option backward.isDefEq.respectTransparency.types false in
theorem acc8 : kernelRun0_A.sl.v188 c arg1 harg1 arg2 harg2 arg4 x0 x1 = accAfter x0 x1 8 := by
  unfold kernelRun0_A.sl.v188 kernelRun0_A.sl.HS0_9
  rw [readCov_last _ zeroOff, acc7 arg1 harg1 arg2 harg2 arg4 x0 x1 c, load_left arg1 harg1 x0 7 (by decide) _ rfl,
    load_right arg2 harg2 x1 7 (by decide) _ rfl, spelt11]
  rfl

set_option backward.isDefEq.respectTransparency.types false in
theorem acc9 : kernelRun0_A.sl.v209 c arg1 harg1 arg2 harg2 arg4 x0 x1 = accAfter x0 x1 9 := by
  unfold kernelRun0_A.sl.v209 kernelRun0_A.sl.HS0_10 kernelRun0_A.sl.r_4
  rw [readCov_last _ zeroOff, acc8 arg1 harg1 arg2 harg2 arg4 x0 x1 c, load_left arg1 harg1 x0 8 (by decide) _ rfl,
    load_right arg2 harg2 x1 8 (by decide) _ rfl, spelt13]
  rfl

set_option backward.isDefEq.respectTransparency.types false in
theorem acc10 : kernelRun0_A.sl.v230 c arg1 harg1 arg2 harg2 arg4 x0 x1 = accAfter x0 x1 10 := by
  unfold kernelRun0_A.sl.v230 kernelRun0_A.sl.HS0_11
  rw [readCov_last _ zeroOff, acc9 arg1 harg1 arg2 harg2 arg4 x0 x1 c, load_left arg1 harg1 x0 9 (by decide) _ rfl,
    load_right arg2 harg2 x1 9 (by decide) _ rfl, spelt14]
  rfl

set_option backward.isDefEq.respectTransparency.types false in
theorem acc11 : kernelRun0_A.sl.v251 c arg1 harg1 arg2 harg2 arg4 x0 x1 = accAfter x0 x1 11 := by
  unfold kernelRun0_A.sl.v251 kernelRun0_A.sl.HS0_12 kernelRun0_A.sl.r_5
  rw [readCov_last _ zeroOff, acc10 arg1 harg1 arg2 harg2 arg4 x0 x1 c, load_left arg1 harg1 x0 10 (by decide) _ rfl,
    load_right arg2 harg2 x1 10 (by decide) _ rfl, spelt16]
  rfl

set_option backward.isDefEq.respectTransparency.types false in
theorem acc12 : kernelRun0_A.sl.v272 c arg1 harg1 arg2 harg2 arg4 x0 x1 = accAfter x0 x1 12 := by
  unfold kernelRun0_A.sl.v272 kernelRun0_A.sl.HS0_13
  rw [readCov_last _ zeroOff, acc11 arg1 harg1 arg2 harg2 arg4 x0 x1 c, load_left arg1 harg1 x0 11 (by decide) _ rfl,
    load_right arg2 harg2 x1 11 (by decide) _ rfl, spelt17]
  rfl

set_option backward.isDefEq.respectTransparency.types false in
theorem acc13 : kernelRun0_A.sl.v293 c arg1 harg1 arg2 harg2 arg4 x0 x1 = accAfter x0 x1 13 := by
  unfold kernelRun0_A.sl.v293 kernelRun0_A.sl.HS0_14 kernelRun0_A.sl.r_6 kernelRun0_A.sl.r_7
  rw [readCov_last _ zeroOff, acc12 arg1 harg1 arg2 harg2 arg4 x0 x1 c, load_left arg1 harg1 x0 12 (by decide) _ rfl,
    load_right arg2 harg2 x1 12 (by decide) _ rfl, spelt20]
  rfl

set_option backward.isDefEq.respectTransparency.types false in
theorem acc14 : kernelRun0_A.sl.v314 c arg1 harg1 arg2 harg2 arg4 x0 x1 = accAfter x0 x1 14 := by
  unfold kernelRun0_A.sl.v314 kernelRun0_A.sl.HS0_15
  rw [readCov_last _ zeroOff, acc13 arg1 harg1 arg2 harg2 arg4 x0 x1 c, load_left arg1 harg1 x0 13 (by decide) _ rfl,
    load_right arg2 harg2 x1 13 (by decide) _ rfl, spelt21]
  rfl

set_option backward.isDefEq.respectTransparency.types false in
theorem acc15 : kernelRun0_A.sl.v335 c arg1 harg1 arg2 harg2 arg4 x0 x1 = accAfter x0 x1 15 := by
  unfold kernelRun0_A.sl.v335 kernelRun0_A.sl.HS0_16 kernelRun0_A.sl.r_8
  rw [readCov_last _ zeroOff, acc14 arg1 harg1 arg2 harg2 arg4 x0 x1 c, load_left arg1 harg1 x0 14 (by decide) _ rfl,
    load_right arg2 harg2 x1 14 (by decide) _ rfl, spelt22]
  rfl

set_option backward.isDefEq.respectTransparency.types false in
theorem acc16 : kernelRun0_A.sl.v340 c arg1 harg1 arg2 harg2 arg4 x0 x1 = accAfter x0 x1 16 := by
  unfold kernelRun0_A.sl.v340 kernelRun0_A.sl.HS0_17
  rw [readCov_last _ zeroOff, acc15 arg1 harg1 arg2 harg2 arg4 x0 x1 c, load_left arg1 harg1 x0 15 (by decide) _ rfl,
    load_right arg2 harg2 x1 15 (by decide) _ rfl, spelt23]
  rfl

/-- WHAT THE BODY LEAVES IN THE OUTPUT BLOCK: its last statement copies the accumulator, which by then has absorbed
    all sixteen chunks. -/
theorem out_eq (i : grid0.Coords) (arg3 : Memref sig .tc .vmem S128x128 .f32) (harg3 : arg3.IsWhole) (harg4 : arg4.IsWhole) :
    out0_A_2 c i arg1 harg1 arg2 harg2 arg3 harg3 arg4 harg4 x0 x1 = accAfter x0 x1 16 := by
  unfold out0_A_2
  rw [View.read_writes_eq_canon _ _ _ (cover0_A_2 c i arg1 harg1 arg2 harg2 arg3 harg3 arg4 harg4 x0 x1)]
  unfold kernelRun0_A
  dsimp only
  rw [View.canon_unit_zero zeroOff, acc16 arg1 harg1 arg2 harg2 arg4 x0 x1 c]

end Cert.KernelIdeal.MaxMin

end
-- ==== Proof.KernelValue.lean ====
/-
  The kernel computes `maxMin`.

  The grid has four points, one per block of 128 output columns. At point `t` the body sees the whole left operand
  (its block never moves) and columns `128 t … 128 t + 127` of the weights, and its sixteen chunk updates leave in the
  output block the running maximum of the chunks' suprema, which is the supremum over all 2048 reduction indices: block
  `t` of `maxMin`. The four blocks tile the output array, so after the run the array is `maxMin` of the arguments.
-/
import proofs.«149591_j14705968021855_1_alg».proof.Proof.Gen.KernelIdeal.Value
import proofs.«149591_j14705968021855_1_alg».proof.Proof.ChunkStep
import proofs.«149591_j14705968021855_1_alg».proof.Proof.ChunkChain

set_option maxRecDepth 16384

noncomputable section

namespace Cert.KernelIdeal.MaxMin

open Cert.KernelIdeal Cert.KernelIdeal.Gen Cert.MaxMin Idealize.ShloMosaic Idealize.ShloMosaic.TcCoe Idealize.ShloMosaic.ValueIdx
open Idealize.SL.Sem
open Idealize.ShloMosaic.Pipeline (Dat)

/-! ## One block -/

/-- The reset accumulator is `-∞` everywhere. -/
theorem reset_apply (p q : Fin 128) : k0_pay1 (F := Ideal) (ix2 p q) = (⊥ : EReal) := by
  unfold k0_pay1
  rw [shapeCast_self]
  exact negInf

/-- The accumulator after `n` chunks, at `(p, q)`: the running maximum of the first `n` chunks' suprema. -/
theorem accAfter_apply (x0 : Vec Ideal S128x2048 .f32) (x1 : Vec Ideal S2048x128 .f32) (p q : Fin 128) (n : ℕ) :
    accAfter x0 x1 n (ix2 p q)
      = running (fun k => Finset.univ.sup fun j : Fin 128 => min (leftSlab x0 k (ix2 p j)) (clip (rightSlab x1 k (ix2 j q)))) n := by
  induction n with
  | zero => exact reset_apply p q
  | succ n ih => rw [accAfter_succ, chunk_apply, ih]; rfl

/-- THE OUTPUT BLOCK at `(p, q)`: the supremum over all 2048 reduction indices `i` of
    `min (x0 p i) (clip (x1 i q))`, `x0` the left operand's block and `x1` the weight block. -/
theorem block_apply (x0 : Vec Ideal S128x2048 .f32) (x1 : Vec Ideal S2048x128 .f32) (p q : Fin 128) :
    accAfter x0 x1 16 (ix2 p q) = Finset.univ.sup fun i : Fin 2048 => min (x0 (ix2 p i)) (clip (x1 (ix2 i q))) := by
  rw [accAfter_apply]
  refine running_eq_sup (fun i : Fin 2048 => min (x0 (ix2 p i)) (clip (x1 (ix2 i q)))) _ fun k hk => ?_
  refine Finset.sup_congr rfl fun j _ => ?_
  have hj := j.isLt
  have e : min (128 * k + j.val) 2047 = 128 * k + j.val := min_eq_left (by omega)
  show min (x0 (ix2 p ⟨min (128 * k + j.val) 2047, _⟩)) (clip (x1 (ix2 ⟨min (128 * k + j.val) 2047, _⟩ q))) = _
  simp only [e]

/-! ## From blocks to the array -/

variable (m : (ℓ : Loc nD τ sig) → Buf (Elt Ideal) ℓ) (ρ : Dev nD → PrngReg)

/-- The printed index maps, decided over the four grid points: the left operand's block stays at the origin, the
    weight block and the output block move together along the columns. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) = t.val :=
  (by decide +kernel : ∀ t : Fin grid0.N, _)

/-- WHAT POINT `t` WRITES BACK is block `t` of `maxMin` of the argument arrays. -/
theorem flushed_eq (c : Dev nD) (t : Fin cfg0.N) :
    (dats m 0 c).flushed 2 t = ((cfg0.win 2).blk t).view.read (Elt Ideal) (maxMin (V m c main_arg0) (V m c main_arg1)) := by
  rw [Value.flushed2_A, out_eq]
  obtain ⟨e0, e1, e2, e3, e4, e5⟩ := idx_facts t
  funext j
  obtain ⟨p, q, rfl⟩ : ∃ (p q : Fin 128), j = ix2 p q := ⟨j 0, j 1, eq_ix2 j⟩
  show accAfter (iblk m c 0 t) (iblk m c 1 t) 16 (ix2 p q)
    = maxMin (V m c main_arg0) (V m c main_arg1) (((cfg0.win 2).blk t).view.emb (ix2 p q))
  refine (block_apply (iblk m c 0 t) (iblk m c 1 t) p q).trans ?_
  refine Finset.sup_congr rfl fun i _ => ?_
  have h0 : iblk m c 0 t (ix2 p i) = V m c main_arg0 (ix2 (n0 := 128) ⟨((((cfg0.win 2).blk t).view.emb (ix2 p q)) 0).val, idx2_lt0 _⟩ i) := by
    show V m c main_arg0 (((cfg0.win 0).blk t).view.emb (ix2 p i)) = _
    congr 1
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 2048 + 1 * i.val = i.val; omega
  have h1 : iblk m c 1 t (ix2 i q) = V m c main_arg1 (ix2 (n1 := 512) i ⟨((((cfg0.win 2).blk t).view.emb (ix2 p q)) 1).val, idx2_lt1 _⟩) := by
    show V m c main_arg1 (((cfg0.win 1).blk t).view.emb (ix2 i q)) = _
    congr 1
    funext a; apply Fin.ext
    match a with
    | ⟨0, _⟩ => show win0_1.index t (0 : Fin 2) * 2048 + 1 * i.val = i.val; omega
    | ⟨1, _⟩ => show win0_1.index t (1 : Fin 2) * 128 + 1 * q.val = win0_2.index t (1 : Fin 2) * 128 + 1 * q.val; omega
  rw [h0, h1]

/-- An index of the output array is in point `t`'s block iff each coordinate is in the block's range on its axis. -/
theorem mem_blk (t : Fin cfg0.N) (i : S128x512.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every index of the output array lies in the block of the point that owns its 128 columns. -/
theorem cover (i : S128x512.Idx) : ∃ t : Fin cfg0.N, (cfg0.win 2).flush t = true ∧ i ∈ ((cfg0.win 2).blk t).view.set := by
  have hi0 : (i 0).val < 128 := idx2_lt0 i
  have hi1 : (i 1).val < 512 := idx2_lt1 i
  let t : Fin cfg0.N := ⟨(i 1).val / 128, by show (i 1).val / 128 < 4; omega⟩
  obtain ⟨e0, e1, e2, e3, e4, e5⟩ := idx_facts t
  have e5' : win0_2.index t (1 : Fin 2) = (i 1).val / 128 := e5
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE OUTPUT ARRAY after the run is `maxMin` of the argument arrays. -/
theorem final (c : Dev nD) :
    (dats m 0 c).arrAt 2 cfg0.N = maxMin (m ((c : Thread nD τ).loc main_arg0)) (m ((c : Thread nD τ).loc main_arg1)) :=
  (dats m 0 c).arrAt_eq_of_cover 2 (maxMin (V m c main_arg0) (V m c main_arg1)) (fun t _ => flushed_eq m c t) cover

/-- The kernel's run with its result array named: `maxMin` of the arguments, which end unchanged. -/
theorem run : θ_run defs (onTc (τ := τ) (main (F := Ideal))) ⟨m, fun _ => 0, ρ⟩ fun r => ∀ c : Dev nD,
      r.2.mem ((c : Thread nD τ).loc main_v0) = maxMin (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.MaxMin

end
-- ==== Proof.RefValue.lean ====
/-
  The reference computes `maxMin`.

  The reference clamps the weights, broadcasts `m` to `[128, 2048, 1]` and the clamped weights to `[1, 2048, 512]`, then
  both to `[128, 2048, 512]`, takes the pointwise minimum and reduces the middle axis by `maximum` from `-∞`. Over one
  axis that reduction is, at `(b, o)`, the fold of `max` from `-∞` over the coordinates `i` of the reduced axis of the
  operand at `(b, i, o)` — the supremum —, and each broadcast reads its operand at the coordinates it keeps.
-/
import proofs.«149591_j14705968021855_1_alg».proof.Proof.Gen.ReferenceIdeal.Read
import proofs.«149591_j14705968021855_1_alg».proof.Proof.MaxMinSpec
import Idealize.ShloMosaic.Lib.ValueIdx
import Idealize.ShloMosaic.PureOps.Ideal.Laws

noncomputable section

namespace Cert.ReferenceIdeal.MaxMin

open Cert.ReferenceIdeal Cert.ReferenceIdeal.Gen Cert.ReferenceIdeal.Read Cert.MaxMin
open Idealize.ShloMosaic Idealize.ShloMosaic.ValueIdx

/-- The reduction's shape fact in the form that names the source index of a result index. -/
theorem reducesMid : S128x2048x512.Reduces [(1 : Fin 3)] S128x512 := by decide

/-- The reduced axis put back: the source index of result `(b, o)` at reduction coordinate `i` is `(b, i, o)`. -/
theorem lift_mid (b : Fin 128) (o : Fin 512) (i : Fin 2048) : reducesMid.lift (ix2 b o) i = ix3 b i o := by
  funext d
  apply Fin.ext
  match d with
  | ⟨0, _⟩ => rfl
  | ⟨1, _⟩ => rfl
  | ⟨2, _⟩ => rfl

/-- Through the two broadcasts of `m`, `(b, i, o)` reads `m` at `(b, i)`. -/
theorem left_idx (b : Fin 128) (i : Fin 2048) (o : Fin 512) : idx_main_v1 (idx_main_v3 (ix3 b i o)) = ix2 b i :=
  funext fun a => Fin.ext (by match a with | ⟨0, _⟩ => rfl | ⟨1, _⟩ => rfl)

/-- Through the two broadcasts of the clamped weights, `(b, i, o)` reads them at `(i, o)`. -/
theorem right_idx (b : Fin 128) (i : Fin 2048) (o : Fin 512) : idx_main_v2 (idx_main_v4 (ix3 b i o)) = ix2 i o :=
  funext fun a => Fin.ext (by match a with | ⟨0, _⟩ => rfl | ⟨1, _⟩ => rfl)

/-- The reduction's operand at `(b, i, o)`: `min (m b i) (clip (w i o))`. -/
theorem operand_apply (x0 : Vec Ideal S128x2048 .f32) (x1 : Vec Ideal S2048x512 .f32) (b : Fin 128) (i : Fin 2048) (o : Fin 512) :
    val_main_v5 (F := Ideal) x0 x1 (ix3 b i o) = min (x0 (ix2 b i)) (clip (x1 (ix2 i o))) := by
  rw [val_main_v5_apply, val_main_v3_apply, val_main_v1_apply, val_main_v4_apply, val_main_v2_apply, val_main_v0_apply,
    val_main_call0_v4_apply, val_main_call0_v3_apply, val_main_cst_0_apply, val_main_call0_v2_apply,
    val_main_call0_v1_apply, val_main_call0_v0_apply, val_main_cst_apply, left_idx, right_idx]
  rfl

set_option backward.isDefEq.respectTransparency.types false in
/-- THE REFERENCE'S RESULT is `maxMin` of its arguments. -/
theorem ref_eq (x0 : Vec Ideal S128x2048 .f32) (x1 : Vec Ideal S2048x512 .f32) :
    val_main_v6 (F := Ideal) x0 x1 = maxMin x0 x1 := by
  funext y
  obtain ⟨b, o, rfl⟩ : ∃ (b : Fin 128) (o : Fin 512), y = ix2 b o := ⟨y 0, y 1, eq_ix2 y⟩
  unfold val_main_v6
  refine (Host.reduce_eq_fold_single FloatOps.maximumf _ _ reducesTo_S128x2048x512_S128x512_d1 reducesMid h_S_ (ix2 b o)).trans ?_
  show Finset.fold max (Ideal.ofBits .f32 0xFF800000#32) _ _ = _
  rw [negInf, fold_max_bot]
  refine Finset.sup_congr rfl fun i _ => ?_
  show val_main_v5 (F := Ideal) x0 x1 (reducesMid.lift (ix2 b o) i) = _
  rw [lift_mid, operand_apply]

end Cert.ReferenceIdeal.MaxMin

end
-- ==== Proof.lean ====
/-
  The certificate of a broadcast max-min ("tropical or") reduction,

      out b o = sup over i < 2048 of min (m b i) (clip (w i o)),     clip x = min 1 (max 0 x),

  for `m : f32[128, 2048]` and `w : f32[2048, 512]`, read on the extended reals.

  The kernel runs on a grid of four points, one per block of 128 output columns; at each point it resets a
  `128 × 128` accumulator to `-∞` and folds in the 2048 reduction indices in sixteen chunks of 128, each chunk the
  supremum (a maximum-reduction from `-∞`) of a pointwise minimum of two broadcast slabs. The reference clamps the
  weights once, broadcasts both operands to `[128, 2048, 512]`, takes the pointwise minimum and reduces the middle axis
  by `maximum` from `-∞` in one step. On the extended reals `max` is the lattice join with bottom `-∞`, so a running
  maximum of chunk suprema IS the supremum over the union of the chunks (Proof/MaxMinSpec.lean): both programs end with
  `maxMin` of their arguments. Only the order structure is used; the inputs' finiteness plays no part.

  Proof/MaxMinSpec.lean   the specification `maxMin` and the order fact
  Proof/ChunkStep.lean    one chunk update read at an index
  Proof/ChunkChain.lean   the body's run as sixteen chunk updates of the accumulator, at any float instance
  Proof/KernelValue.lean  the kernel's output array is `maxMin` of its arguments
  Proof/RefValue.lean     the reference's result is `maxMin` of its arguments
  The three frames are the generated frame runs; no operation of the kernel is rewritten by the idealization, so
  `preserves` has nothing to state.
-/
import proofs.«149591_j14705968021855_1_alg».proof.Defs
import proofs.«149591_j14705968021855_1_alg».proof.Proof.Gen.Kernel
import proofs.«149591_j14705968021855_1_alg».proof.Proof.Gen.Kernel.Skeleton
import proofs.«149591_j14705968021855_1_alg».proof.Proof.Gen.Kernel.Launch
import proofs.«149591_j14705968021855_1_alg».proof.Proof.Gen.Kernel.Points
import proofs.«149591_j14705968021855_1_alg».proof.Proof.Gen.Kernel.Frame
import proofs.«149591_j14705968021855_1_alg».proof.Proof.Gen.KernelIdeal
import proofs.«149591_j14705968021855_1_alg».proof.Proof.Gen.KernelIdeal.Skeleton
import proofs.«149591_j14705968021855_1_alg».proof.Proof.Gen.KernelIdeal.Launch
import proofs.«149591_j14705968021855_1_alg».proof.Proof.Gen.KernelIdeal.Points
import proofs.«149591_j14705968021855_1_alg».proof.Proof.Gen.KernelIdeal.Frame
import proofs.«149591_j14705968021855_1_alg».proof.Proof.Gen.ReferenceIdeal
import proofs.«149591_j14705968021855_1_alg».proof.Proof.Gen.Pre_finite_inputs
import proofs.«149591_j14705968021855_1_alg».proof.Proof.Gen.KernelIdeal.Value
import proofs.«149591_j14705968021855_1_alg».proof.Proof.Gen.ReferenceIdeal.Run
import proofs.«149591_j14705968021855_1_alg».proof.Proof.Gen.ReferenceIdeal.Read
import proofs.«149591_j14705968021855_1_alg».proof.Proof.KernelValue
import proofs.«149591_j14705968021855_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `m` and `w` both programs end with `maxMin m w`: the kernel block by block
    (Proof/KernelValue.lean), the reference in one reduction (Proof/RefValue.lean). -/
theorem algebraic : Cert.algebraic_KernelIdeal_ReferenceIdeal := by
  intro m ρ m' ρ' _ hagree
  refine ⟨_, Cert.KernelIdeal.MaxMin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.MaxMin.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
